-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 118
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S256x128, .f32⟩
  | .hbm, ⟨100, _⟩ => ⟨S50000x1, .i32⟩
  | .hbm, ⟨101, _⟩ => ⟨S256x128, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S256, .f32⟩
  | .hbm, ⟨106, _⟩ => ⟨S50000x1, .i32⟩
  | .hbm, ⟨107, _⟩ => ⟨S256, .f32⟩
  | .hbm, ⟨108, _⟩ => ⟨S_, .f32⟩
  | .hbm, ⟨109, _⟩ => ⟨S256, .f32⟩
  | .hbm, ⟨110, _⟩ => ⟨S256, .f32⟩
  | .hbm, ⟨111, _⟩ => ⟨S256x1, .f32⟩
  | .hbm, ⟨112, _⟩ => ⟨S256x128, .f32⟩
  | .hbm, ⟨113, _⟩ => ⟨S256x128, .f32⟩
  | .hbm, ⟨114, _⟩ => ⟨S256x10, .f32⟩
  | .hbm, ⟨115, _⟩ => ⟨S1x10, .f32⟩
  | .hbm, ⟨116, _⟩ => ⟨S256x10, .f32⟩
  | .hbm, ⟨117, _⟩ => ⟨S256x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S256x128, .f32⟩
  | .hbm, ⟨100, _⟩ => ⟨S50000x1, .i32⟩
  | .hbm, ⟨101, _⟩ => ⟨S256x128, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S256, .f32⟩
  | .hbm, ⟨106, _⟩ => ⟨S50000x1, .i32⟩
  | .hbm, ⟨107, _⟩ => ⟨S256, .f32⟩
  | .hbm, ⟨108, _⟩ => ⟨S_, .f32⟩
  | .hbm, ⟨109, _⟩ => ⟨S256, .f32⟩
  | .hbm, ⟨110, _⟩ => ⟨S256, .f32⟩
  | .hbm, ⟨111, _⟩ => ⟨S256x1, .f32⟩
  | .hbm, ⟨112, _⟩ => ⟨S256x128, .f32⟩
  | .hbm, ⟨113, _⟩ => ⟨S256x128, .f32⟩
  | .hbm, ⟨114, _⟩ => ⟨S256x10, .f32⟩
  | .hbm, ⟨115, _⟩ => ⟨S1x10, .f32⟩
  | .hbm, ⟨116, _⟩ => ⟨S256x10, .f32⟩
  | .hbm, ⟨117, _⟩ => ⟨S256x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«118546_j1228360647292_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.FirstProduct.lean ====
/-
  What the first pallas_call leaves in its result array.

  The call tiles the [50000, 128] operand by five blocks of 10000 rows; at grid point t the body loads rows
  10000·t … 10000·t + 9999 of the operand and the whole [128, 128] weight, rounds both to bf16 (the identity on the
  extended reals), multiplies them into a zero accumulator and stores the [10000, 128] product, which the pipeline
  writes back as rows 10000·t … 10000·t + 9999 of the result. Entry (p, q) of a block's product is the sum over k of
  operand (10000·t + p, k) · weight (k, q): row 10000·t + p of the whole product. The five blocks cover the array, so
  it ends holding the whole product, whatever the buffers held when the call was entered.
-/
import proofs.«118546_j1228360647292_1_alg».proof.Proof.Gen.KernelIdeal.Frame
import proofs.«118546_j1228360647292_1_alg».proof.Proof.LibRowBlockProduct
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.PlainDot Idealize.ShloMosaic.RowBlockProduct

namespace Cert.KernelIdeal.FirstProduct

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's matrix product contracts the operand's columns with the weight's rows and has no batch axis. -/
theorem plain : IsPlain (R := 10000) (K := 128) (N := 128) dot_S10000x128_S128x128_S10000x128_1_0_0_1_n_n :=
  ⟨rfl, rfl, rfl, rfl, rfl, rfl⟩

/-- The index maps over the grid: the operand's and the result's block row is the point, every other block index 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at (p, q), for a block x0 that holds the rows o … o + 9999 of A and a block x1 that holds B:
    row o + p of the product A · B. -/
theorem pay_apply (A : S50000x128.Idx → EReal) (B : S128x128.Idx → EReal)
    (x0 : Vec Ideal S10000x128 .f32) (x1 : Vec Ideal S128x128 .f32) (o : ℕ) (ho : o + 10000 ≤ 50000)
    (hx0 : ∀ (p : Fin 10000) (k : Fin 128), x0 (ix2 p k) = A (ix2 ⟨o + p.val, by have := p.isLt; omega⟩ k))
    (hx1 : ∀ (k : Fin 128) (q : Fin 128), x1 (ix2 k q) = B (ix2 k q)) (p : Fin 10000) (q : Fin 128) :
    k0_pay1 x0 x1 (ix2 p q) = prod A B (ix2 ⟨o + p.val, by have := p.isLt; omega⟩ q) := by
  unfold k0_pay1
  exact matmul_rows plain none A B _ _ o ho hx0 hx1 p q

/-- What point t writes back is block t of the product of the operand and the weight as the call finds them. -/
theorem flushed_eq (c : Dev nD) (t : Fin cfg0.N) :
    (dat0 V c).flushed 2 t = ((cfg0.win 2).blk t).view.read (Elt Ideal)
      (prod (R := 50000) (K := 128) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  have hN : cfg0.N = 5 := N_0
  have ht : t.val < 5 := hN ▸ t.isLt
  show (k0_pay1 (iblk0 V c 0 t) (iblk0 V c 1 t) : S10000x128.Idx → EReal)
    = fun j => prod (R := 50000) (K := 128) (N := 128) (V c main_arg0) (V c main_arg3) (((cfg0.win 2).blk t).view.emb j)
  funext j
  obtain ⟨p, q, rfl⟩ : ∃ (p : Fin 10000) (q : Fin 128), j = ix2 p q := ⟨j 0, j 1, eq_ix2 j⟩
  refine (pay_apply (V c main_arg0) (V c main_arg3) (iblk0 V c 0 t) (iblk0 V c 1 t) (t.val * 10000) (by omega) ?_ ?_ p q).trans ?_
  · -- the operand's block at point t is its rows 10000·t … 10000·t + 9999
    intro p k
    unfold iblk0
    rw [View.read_apply]
    show (V c main_arg0 : S50000x128.Idx → EReal) (((cfg0.win 0).blk t).view.emb (ix2 p k)) = _
    refine congrArg (V c main_arg0 : S50000x128.Idx → EReal) ?_
    funext a
    apply Fin.ext
    match a with
    | ⟨0, _⟩ => show win0_0.index t (0 : Fin 2) * 10000 + 1 * p.val = t.val * 10000 + p.val; rw [e0]; omega
    | ⟨1, _⟩ => show win0_0.index t (1 : Fin 2) * 128 + 1 * k.val = k.val; rw [e1]; omega
  · -- the weight's one block is the weight
    intro k q
    unfold iblk0
    rw [View.read_apply]
    show (V c main_arg3 : S128x128.Idx → EReal) (((cfg0.win 1).blk t).view.emb (ix2 k q)) = _
    refine congrArg (V c main_arg3 : S128x128.Idx → EReal) ?_
    funext a
    apply Fin.ext
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  · -- entry (p, q) of the result's block at point t is entry (10000·t + p, q) of the array
    refine congrArg (prod (R := 50000) (K := 128) (N := 128) (V c main_arg0) (V c main_arg3)) ?_
    funext a
    apply Fin.ext
    match a with
    | ⟨0, _⟩ => show t.val * 10000 + p.val = win0_2.index t (0 : Fin 2) * 10000 + 1 * p.val; rw [e4]; omega
    | ⟨1, _⟩ => show q.val = win0_2.index t (1 : Fin 2) * 128 + 1 * q.val; rw [e5]; omega

/-- An index of the result array is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Row r of the result lies in the block of point r / 10000: the five blocks cover the array. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have hlt : (i 0).val / 10000 < cfg0.N := by rw [hN]; omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; dsimp only; omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    rw [e5]; omega

/-- The result array after the call is the product of the operand and the weight as the call finds them. -/
theorem array (c : Dev nD) :
    (dat0 V c).arrAt 2 cfg0.N = prod (R := 50000) (K := 128) (N := 128) (V c main_arg0) (V c main_arg3) :=
  (dat0 V c).arrAt_eq_of_cover 2 _ (fun t _ => flushed_eq V c t) cover

end Cert.KernelIdeal.FirstProduct

end
-- ==== Proof.SecondProduct.lean ====
/-
  What the second pallas_call leaves in its result array.

  The same tiling as the first call, on the first layer's activations and the second weight: at grid point t the body
  loads rows 10000·t … 10000·t + 9999 of the [50000, 128] operand (through a reshape to its own shape, the identity) and
  the whole [128, 128] weight, rounds both to bf16 (the identity on the extended reals), multiplies them into a zero
  accumulator and stores the product, written back as the same rows of the result. Entry (p, q) of a block's product is
  the sum over k of operand (10000·t + p, k) · weight (k, q), row 10000·t + p of the whole product; the five blocks cover
  the array, so it ends holding the whole product, whatever the buffers held when the call was entered.
-/
import proofs.«118546_j1228360647292_1_alg».proof.Proof.Gen.KernelIdeal.Frame
import proofs.«118546_j1228360647292_1_alg».proof.Proof.LibRowBlockProduct
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx Idealize.ShloMosaic.PlainDot Idealize.ShloMosaic.RowBlockProduct

namespace Cert.KernelIdeal.SecondProduct

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's matrix product contracts the operand's columns with the weight's rows and has no batch axis. -/
theorem plain : IsPlain (R := 10000) (K := 128) (N := 128) dot_S10000x128_S128x128_S10000x128_1_0_0_1_n_n :=
  ⟨rfl, rfl, rfl, rfl, rfl, rfl⟩

/-- The index maps over the grid: the operand's and the result's block row is the point, every other block index 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's payload at (p, q), for a block x0 that holds the rows o … o + 9999 of A and a block x1 that holds B:
    row o + p of the product A · B. -/
theorem pay_apply (A : S50000x128.Idx → EReal) (B : S128x128.Idx → EReal)
    (x0 : Vec Ideal S10000x128 .f32) (x1 : Vec Ideal S128x128 .f32) (o : ℕ) (ho : o + 10000 ≤ 50000)
    (hx0 : ∀ (p : Fin 10000) (k : Fin 128), x0 (ix2 p k) = A (ix2 ⟨o + p.val, by have := p.isLt; omega⟩ k))
    (hx1 : ∀ (k : Fin 128) (q : Fin 128), x1 (ix2 k q) = B (ix2 k q)) (p : Fin 10000) (q : Fin 128) :
    k1_pay1 x0 x1 (ix2 p q) = prod A B (ix2 ⟨o + p.val, by have := p.isLt; omega⟩ q) := by
  unfold k1_pay1
  simp only [shapeCast_self]
  exact matmul_rows plain none A B _ _ o ho hx0 hx1 p q

/-- What point t writes back is block t of the product of the operand and the weight as the call finds them. -/
theorem flushed_eq (c : Dev nD) (t : Fin cfg1.N) :
    (dat1 V c).flushed 2 t = ((cfg1.win 2).blk t).view.read (Elt Ideal)
      (prod (R := 50000) (K := 128) (N := 128) (V c main_v49) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx_facts t
  have hN : cfg1.N = 5 := N_1
  have ht : t.val < 5 := hN ▸ t.isLt
  show (k1_pay1 (iblk1 V c 0 t) (iblk1 V c 1 t) : S10000x128.Idx → EReal)
    = fun j => prod (R := 50000) (K := 128) (N := 128) (V c main_v49) (V c main_arg5) (((cfg1.win 2).blk t).view.emb j)
  funext j
  obtain ⟨p, q, rfl⟩ : ∃ (p : Fin 10000) (q : Fin 128), j = ix2 p q := ⟨j 0, j 1, eq_ix2 j⟩
  refine (pay_apply (V c main_v49) (V c main_arg5) (iblk1 V c 0 t) (iblk1 V c 1 t) (t.val * 10000) (by omega) ?_ ?_ p q).trans ?_
  · -- the operand's block at point t is its rows 10000·t … 10000·t + 9999
    intro p k
    unfold iblk1
    rw [View.read_apply]
    show (V c main_v49 : S50000x128.Idx → EReal) (((cfg1.win 0).blk t).view.emb (ix2 p k)) = _
    refine congrArg (V c main_v49 : S50000x128.Idx → EReal) ?_
    funext a
    apply Fin.ext
    match a with
    | ⟨0, _⟩ => show win1_0.index t (0 : Fin 2) * 10000 + 1 * p.val = t.val * 10000 + p.val; rw [e0]; omega
    | ⟨1, _⟩ => show win1_0.index t (1 : Fin 2) * 128 + 1 * k.val = k.val; rw [e1]; omega
  · -- the weight's one block is the weight
    intro k q
    unfold iblk1
    rw [View.read_apply]
    show (V c main_arg5 : S128x128.Idx → EReal) (((cfg1.win 1).blk t).view.emb (ix2 k q)) = _
    refine congrArg (V c main_arg5 : S128x128.Idx → EReal) ?_
    funext a
    apply Fin.ext
    match a with
    | ⟨0, _⟩ => show win1_1.index t (0 : Fin 2) * 128 + 1 * k.val = k.val; rw [e2]; omega
    | ⟨1, _⟩ => show win1_1.index t (1 : Fin 2) * 128 + 1 * q.val = q.val; rw [e3]; omega
  · -- entry (p, q) of the result's block at point t is entry (10000·t + p, q) of the array
    refine congrArg (prod (R := 50000) (K := 128) (N := 128) (V c main_v49) (V c main_arg5)) ?_
    funext a
    apply Fin.ext
    match a with
    | ⟨0, _⟩ => show t.val * 10000 + p.val = win1_2.index t (0 : Fin 2) * 10000 + 1 * p.val; rw [e4]; omega
    | ⟨1, _⟩ => show q.val = win1_2.index t (1 : Fin 2) * 128 + 1 * q.val; rw [e5]; omega

/-- An index of the result array is in point t's block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v50).slice (win1_2.rect t)).set ↔ _
  rw [View.set_slice_whole, Rect.mem_set_unit]
  exact Iff.rfl

/-- Row r of the result lies in the block of point r / 10000: the five blocks cover the array. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  have hlt : (i 0).val / 10000 < cfg1.N := by rw [hN]; omega
  obtain ⟨-, -, -, -, e4, e5⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; dsimp only; omega
  | ⟨1, _⟩ =>
    show win1_2.index ⟨(i 0).val / 10000, hlt⟩ (1 : Fin 2) * 128 ≤ (i 1).val ∧ (i 1).val < win1_2.index ⟨(i 0).val / 10000, hlt⟩ (1 : Fin 2) * 128 + 128
    rw [e5]; omega

/-- The result array after the call is the product of the operand and the weight as the call finds them. -/
theorem array (c : Dev nD) :
    (dat1 V c).arrAt 2 cfg1.N = prod (R := 50000) (K := 128) (N := 128) (V c main_v49) (V c main_arg5) :=
  (dat1 V c).arrAt_eq_of_cover 2 _ (fun t _ => flushed_eq V c t) cover

end Cert.KernelIdeal.SecondProduct

end
-- ==== Proof.CallResults.lean ====
/-
  Each pallas_call leaves in its result array the general dot product of its two operands.

  At the extended reals the host's general dot product with the plain dimension numbers is the matrix product,
  entry (p, q) the sum over k of l (p, k) · r (k, q), and that is what each call's five row blocks write
  (the two modules on the calls). Stated here at the buffer contents the kernel program's run names: the contents when a
  call is entered and the contents when it returns.
-/
import proofs.«118546_j1228360647292_1_alg».proof.Proof.FirstProduct
import proofs.«118546_j1228360647292_1_alg».proof.Proof.SecondProduct
import proofs.«118546_j1228360647292_1_alg».proof.Proof.Gen.ReferenceIdeal

set_option maxRecDepth 16384

noncomputable section

open Idealize.ShloMosaic Idealize.ShloMosaic.TcCoe Idealize.SL.Sem
open Idealize.ShloMosaic.PlainDot Idealize.ShloMosaic.RowBlockProduct

namespace Cert.KernelIdeal.CallResults

open Cert.KernelIdeal Cert.KernelIdeal.Gen

variable (m : (ℓ : Loc nD τ sig) → Buf (Elt Ideal) ℓ) (ρ : Dev nD → PrngReg)

/-- The reference's dot product of a [50000, 128] by a [128, 128] matrix contracts columns with rows, no batch axis. -/
theorem plainWhole : IsPlain (R := 50000) (K := 128) (N := 128)
    Cert.ReferenceIdeal.dot_S50000x128_S128x128_S50000x128_1_0_0_1_n_n := ⟨rfl, rfl, rfl, rfl, rfl, rfl⟩

/-- After the first call its result buffer holds the dot product of the node features and the first weight. -/
theorem first (c : Dev nD) :
    W4 m ρ c (Proc.devRef .tc main_v32)
      = (Host.dotGeneral (F := Ideal) (φ₁ := .f32) (φ₂ := .f32) Cert.ReferenceIdeal.dot_S50000x128_S128x128_S50000x128_1_0_0_1_n_n none
          (W3 m ρ c (Proc.devRef .tc main_arg0) : FVec Ideal S50000x128 .f32)
          (W3 m ρ c (Proc.devRef .tc main_arg3) : FVec Ideal S128x128 .f32) : FVec Ideal S50000x128 .f32) :=
  (W4_arr m ρ c 2).trans ((FirstProduct.array (V3 m ρ) c).trans (dotGeneral_eq_prod plainWhole none _ _).symm)

/-- After the second call its result buffer holds the dot product of the first layer's output and the second weight. -/
theorem second (c : Dev nD) :
    W7 m ρ c (Proc.devRef .tc main_v50)
      = (Host.dotGeneral (F := Ideal) (φ₁ := .f32) (φ₂ := .f32) Cert.ReferenceIdeal.dot_S50000x128_S128x128_S50000x128_1_0_0_1_n_n none
          (W6 m ρ c (Proc.devRef .tc main_v49) : FVec Ideal S50000x128 .f32)
          (W6 m ρ c (Proc.devRef .tc main_arg5) : FVec Ideal S128x128 .f32) : FVec Ideal S50000x128 .f32) :=
  (W7_arr m ρ c 2).trans ((SecondProduct.array (V6 m ρ) c).trans (dotGeneral_eq_prod plainWhole none _ _).symm)

end Cert.KernelIdeal.CallResults

end
-- ==== Proof.HostFold.lean ====
/-
  The kernel program's result is the reference's term of the arguments.

  The two programs apply the same host operations in the same order: the self-loop index vectors, the degree
  normalisation, and for each layer the gather of rows, the scaling by the edge norm, the scatter-add, the bias and
  the relu, then the mean pooling and the last linear layer. They differ at two places only, where the kernel
  program launches a pallas_call and the reference applies a general dot product to the same two operands. So once
  each call's result array is known to hold that dot product of what the call finds in its operands, walking the
  kernel program's buffer contents from the launch memory through its host stretches and its two calls gives, at the
  result buffer, the very term the reference's run ends with, read at memories that agree on the arguments.

  This holds for any float family: the two facts about the calls are hypotheses here, and nothing else about the
  values is used. (They hold over the extended reals, where a product tiled by row blocks is the whole product.)
-/
import proofs.«118546_j1228360647292_1_alg».proof.Proof.Gen.KernelIdeal.Frame
import proofs.«118546_j1228360647292_1_alg».proof.Proof.ReferenceRun
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostFold

open Cert.KernelIdeal Cert.KernelIdeal.Gen

variable {F : FTy → Type} [FloatOps F]
variable (m : (ℓ : Loc nD τ sig) → Buf (Elt F) ℓ) (ρ : Dev nD → PrngReg)

/-- A buffer that is none of the first call's three arrays holds after the call what it held before it. -/
theorem afterFirst_keep (c : Dev nD) {r : Ref sig .tc} (h : ∀ w, Pipeline.arrRef spec0 w ≠ r) :
    W4 m ρ c (no_index (Proc.devRef .tc r)) = W3 m ρ c (Proc.devRef .tc r) := W4_of_ne m ρ c r h

/-- A buffer that is none of the second call's three arrays holds after the call what it held before it. -/
theorem afterSecond_keep (c : Dev nD) {r : Ref sig .tc} (h : ∀ w, Pipeline.arrRef spec1 w ≠ r) :
    W7 m ρ c (no_index (Proc.devRef .tc r)) = W6 m ρ c (Proc.devRef .tc r) := W7_of_ne m ρ c r h

set_option maxHeartbeats 4000000 in
/-- If each call leaves in its result array the general dot product of what it finds in its two operands, the kernel
    program's result buffer ends at the reference's term of arguments that agree. -/
theorem result_eq (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (hfirst : W4 m ρ c (Proc.devRef .tc main_v32)
      = Host.dotGeneral Cert.ReferenceIdeal.dot_S50000x128_S128x128_S50000x128_1_0_0_1_n_n none
          (W3 m ρ c (Proc.devRef .tc main_arg0)) (W3 m ρ c (Proc.devRef .tc main_arg3)))
    (hsecond : W7 m ρ c (Proc.devRef .tc main_v50)
      = Host.dotGeneral Cert.ReferenceIdeal.dot_S50000x128_S128x128_S50000x128_1_0_0_1_n_n none
          (W6 m ρ c (Proc.devRef .tc main_v49)) (W6 m ρ c (Proc.devRef .tc main_arg5))) :
    W10 m ρ c (Proc.devRef .tc main_v83) = Cert.ReferenceIdeal.Value.res_main_v83 m' c := by
  unfold Cert.ReferenceIdeal.Value.res_main_v83
  rw [h0, h1, h2, h3, h4, h5, h6, h7, h8]
  simp (disch := decide) only [hostOps0, hostOps0_1, hostOps0_2, hostOps1, hostOps1_1, hostOps2, hostOps2_1, hostOps2_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    afterFirst_keep, afterSecond_keep, hfirst, hsecond]
  -- the typed references of the inlined functions' buffers are the buffers
  simp only [TRef.ofBuf, TRef.toBuf, cast_eq]
  -- each of the two index vectors is a row of the edge list, reshaped, followed by the node numbers: read the two pieces
  -- of each concatenation back to the arguments as well
  repeat (first
    | rw [reshape_result] | rw [unary_result] | rw [binary_result] | rw [nullary_result]
    | (rw [reshape_result_ne]; rotate_left; decide)
    | (rw [unary_result_ne]; rotate_left; decide)
    | (rw [binary_result_ne]; rotate_left; decide)
    | (rw [nullary_result_ne]; rotate_left; decide))
  -- both sides are now the same operations applied to the same arguments
  rfl

end Cert.KernelIdeal.HostFold

end
-- ==== Proof.lean ====
/-
  The certificate of the two-layer graph convolution network: the Pallas program against its jnp reference.

  Both programs compute, from node features x, an edge list, graph ids and the weights, the same chain: the edge list
  with a self loop per node, the symmetric degree normalisation of the edges, two graph-convolution layers
  relu (scatter_add (gather (h W, src) · norm, dst) + b), the mean of the nodes' rows per graph, and a last linear layer.
  The reference forms each layer's dense product h W as one general dot product; the kernel program forms it in a
  pallas_call that tiles the 50000 rows into five blocks of 10000, rounds both operands to bf16 and multiplies each
  block by the whole weight into a zero accumulator. Over the extended reals the rounding is the identity and a block's
  product is the same rows of the whole product, so each call's result array is the reference's dot product of the same
  operands, and every other operation is the same on both sides: the two results are one term of the arguments.
  No law of arithmetic beyond that is used, so the precondition (finite inputs) is never opened.

  The frames: the kernel programs' are the generated frame certificates; the reference's is its run with the result
  dropped. The idealization rewrote no operation, so there is nothing to preserve.
-/
import proofs.«118546_j1228360647292_1_alg».proof.Defs
import proofs.«118546_j1228360647292_1_alg».proof.Proof.Gen.Kernel
import proofs.«118546_j1228360647292_1_alg».proof.Proof.Gen.Kernel.Frame
import proofs.«118546_j1228360647292_1_alg».proof.Proof.Gen.KernelIdeal
import proofs.«118546_j1228360647292_1_alg».proof.Proof.Gen.KernelIdeal.Frame
import proofs.«118546_j1228360647292_1_alg».proof.Proof.Gen.ReferenceIdeal
import proofs.«118546_j1228360647292_1_alg».proof.Proof.Gen.Pre_finite_inputs
import proofs.«118546_j1228360647292_1_alg».proof.Proof.ReferenceRun
import proofs.«118546_j1228360647292_1_alg».proof.Proof.KernelRun
import proofs.«118546_j1228360647292_1_alg».proof.Proof.CallResults
import proofs.«118546_j1228360647292_1_alg».proof.Proof.HostFold

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the reference's term of the arguments in the result buffer: the
    reference by its run, the kernel program because each of its two calls leaves the reference's dot product of the
    same operands and every other operation is shared. -/
theorem algebraic : Cert.algebraic_KernelIdeal_ReferenceIdeal := by
  intro m ρ m' ρ' _ hagree
  refine ⟨fun c => Cert.ReferenceIdeal.Value.res_main_v83 (F := Ideal) m' c, ?_,
    Cert.ReferenceIdeal.Value.run (F := Ideal) m' ρ'⟩
  refine (θ_run Cert.KernelIdeal.defs _ _).mono (fun _ h c => ⟨(h c).1.trans ?_, (h c).2⟩)
    (Cert.KernelIdeal.GenRun.run (F := Ideal) m ρ)
  obtain ⟨h0, h1, h2, h3, h4, h5, h6, h7, h8⟩ := hagree c
  exact Cert.KernelIdeal.HostFold.result_eq m ρ m' c h0 h1 h2 h3 h4 h5 h6 h7 h8
    (Cert.KernelIdeal.CallResults.first m ρ c) (Cert.KernelIdeal.CallResults.second m ρ c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
